-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x64 : Shape := ⟨2, ![500000, 64]⟩
abbrev S128 : Shape := ⟨1, ![128]⟩
abbrev S_ : Shape := ⟨0, ![]⟩

class Facts : Prop where
  bcast_S_S500000x64 : S_.BroadcastsInDim S500000x64 (![] : Fin 0 → Fin S500000x64.rank)
  reducesTo_S500000x64_S_d0_1 : S500000x64.ReducesTo [0, 1] S_
  h_S_ : 0 < S_.numel
  bcast_S_S128 : S_.BroadcastsInDim S128 (![] : Fin 0 → Fin S128.rank)
  reducesTo_S128_S_d0 : S128.ReducesTo [0] S_

variable [Facts]

def fn {F : FTy → Type} [FloatOps F] (main_arg0 : FVec F S500000x64 .f32) (main_arg1 : FVec F S500000x64 .f32) (main_arg2 : FVec F S128 .f32) : IVec S_ 1 :=
  let main_v0 : FVec F S500000x64 .f32 := Host.absf main_arg0
  let main_cst : FVec F S_ .f32 := constant S_ .f32 0x7F800000#32
  let main_v1 : FVec F S500000x64 .f32 := broadcastInDim S500000x64 ![] bcast_S_S500000x64 main_cst
  let main_v2 : IVec S500000x64 1 := cmpf .olt main_v0 main_v1
  let main_c : IVec S_ 1 := constantI S_ 1 1#1
  let main_v3 : IVec S_ 1 := (fun x v => Host.reduce IntOp.andi x v reducesTo_S500000x64_S_d0_1 h_S_) main_v2 main_c
  let main_v4 : FVec F S500000x64 .f32 := Host.absf main_arg1
  let main_cst_0 : FVec F S_ .f32 := constant S_ .f32 0x7F800000#32
  let main_v5 : FVec F S500000x64 .f32 := broadcastInDim S500000x64 ![] bcast_S_S500000x64 main_cst_0
  let main_v6 : IVec S500000x64 1 := cmpf .olt main_v4 main_v5
  let main_c_1 : IVec S_ 1 := constantI S_ 1 1#1
  let main_v7 : IVec S_ 1 := (fun x v => Host.reduce IntOp.andi x v reducesTo_S500000x64_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  main_v13
-- ==== Kernel.lean ====
abbrev S500000x64 : Shape := ⟨2, ![500000, 64]⟩
abbrev S128 : Shape := ⟨1, ![128]⟩
abbrev S500000x256 : Shape := ⟨2, ![500000, 256]⟩
abbrev S4096x64 : Shape := ⟨2, ![4096, 64]⟩
abbrev S4096x256 : Shape := ⟨2, ![4096, 256]⟩
abbrev S1x128 : Shape := ⟨2, ![1, 128]⟩
abbrev S4096x128 : Shape := ⟨2, ![4096, 128]⟩

abbrev nBuf : Space → Nat
  | .hbm => 4
  | .vmem => 7
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S128, .f32⟩
  | .hbm, ⟨3, _⟩ => ⟨S500000x256, .f32⟩
  | .local _ .vmem, ⟨0, _⟩ => ⟨S4096x64, .f32⟩
  | .local _ .vmem, ⟨1, _⟩ => ⟨S4096x64, .f32⟩
  | .local _ .vmem, ⟨2, _⟩ => ⟨S4096x64, .f32⟩
  | .local _ .vmem, ⟨3, _⟩ => ⟨S4096x64, .f32⟩
  | .local _ .vmem, ⟨4, _⟩ => ⟨S128, .f32⟩
  | .local _ .vmem, ⟨5, _⟩ => ⟨S4096x256, .f32⟩
  | .local _ .vmem, ⟨6, _⟩ => ⟨S4096x256, .f32⟩
  | _, _ => ⟨S500000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![123], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4096x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  inb_S4096x64_S4096x64_0_0 : ∀ a, (![0, 0] : Fin 2 → Nat) a + S4096x64.size a ≤ S4096x64.size a
  h_S4096x64 : 0 < S4096x64.numel
  inb_S128_S128_0 : ∀ a, (![0] : Fin 1 → Nat) a + S128.size a ≤ S128.size a
  h_S128 : 0 < S128.numel
  shapeCasts_S128_S1x128 : S128.ShapeCasts S1x128
  shapeCasts_S1x128_S1x128 : S1x128.ShapeCasts S1x128
  broadcasts_S1x128_S4096x128 : S1x128.Broadcasts S4096x128
  concatenates_S4096x64_S4096x64_S4096x128_S4096x256_d1 : Shape.Concatenates [S4096x64, S4096x64, S4096x128] S4096x256 1
  inb_S4096x256_S4096x256_0_0 : ∀ a, (![0, 0] : Fin 2 → Nat) a + S4096x256.size a ≤ S4096x256.size a
  h_S4096x256 : 0 < S4096x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S4096x64.size a < S500000x64.size a
  hwx0_0 : ∀ i : grid0.Coords, EltTy.bits .f32 = 32 ∨ (Rect.unit (s := S500000x64) (fun a => cc0_transform_0 i a * S4096x64.size a) (fun a => (Pipeline.Clip.of (cc0_transform_0 i a) (S4096x64.size a) (S500000x64.size a)).extent (S4096x64.size a)) fun a => Pipeline.Clip.inb (Pipeline.Clip.ok_of (hstart0_0 i a))).WholeWords (EltTy.packing .f32)
  hwxs0_0 : ∀ i : grid0.Coords, EltTy.bits .f32 = 32 ∨ (Rect.unit (s := S4096x64) (fun _ => 0) (fun a => (Pipeline.Clip.of (cc0_transform_0 i a) (S4096x64.size a) (S500000x64.size a)).extent (S4096x64.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S4096x64.size a < S500000x64.size a
  hwx0_1 : ∀ i : grid0.Coords, EltTy.bits .f32 = 32 ∨ (Rect.unit (s := S500000x64) (fun a => cc0_transform_1 i a * S4096x64.size a) (fun a => (Pipeline.Clip.of (cc0_transform_1 i a) (S4096x64.size a) (S500000x64.size a)).extent (S4096x64.size a)) fun a => Pipeline.Clip.inb (Pipeline.Clip.ok_of (hstart0_1 i a))).WholeWords (EltTy.packing .f32)
  hwxs0_1 : ∀ i : grid0.Coords, EltTy.bits .f32 = 32 ∨ (Rect.unit (s := S4096x64) (fun _ => 0) (fun a => (Pipeline.Clip.of (cc0_transform_1 i a) (S4096x64.size a) (S500000x64.size a)).extent (S4096x64.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hstart0_3 : ∀ (i : grid0.Coords) a, cc0_transform_3 i a * S4096x256.size a < S500000x256.size a
  hwx0_3 : ∀ i : grid0.Coords, EltTy.bits .f32 = 32 ∨ (Rect.unit (s := S500000x256) (fun a => cc0_transform_3 i a * S4096x256.size a) (fun a => (Pipeline.Clip.of (cc0_transform_3 i a) (S4096x256.size a) (S500000x256.size a)).extent (S4096x256.size a)) fun a => Pipeline.Clip.inb (Pipeline.Clip.ok_of (hstart0_3 i a))).WholeWords (EltTy.packing .f32)
  hwxs0_3 : ∀ i : grid0.Coords, EltTy.bits .f32 = 32 ∨ (Rect.unit (s := S4096x256) (fun _ => 0) (fun a => (Pipeline.Clip.of (cc0_transform_3 i a) (S4096x256.size a) (S500000x256.size a)).extent (S4096x256.size a)) fun a => (Nat.zero_add _).trans_le (Pipeline.Clip.extent_le (Pipeline.Clip.ok_of (hstart0_3 i a)))).WholeWords (EltTy.packing .f32)

variable [Facts₀]

abbrev win0_0 : Pipeline.Window sig grid0 :=
  Pipeline.Window.ofSpecClip (Memref.whole main_arg0) S4096x64.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpecClip (Memref.whole main_arg1) S4096x64.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpecClip (Memref.whole main_v0) S4096x256.size cc0_transform_3 reads0_3 true false 2 stage0_3 sem0_3
    hrank0 hreads0_3 hstart0_3 nbuf0_3 (Memref.isWhole_whole _) hwx0_3 hwxs0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S500000x64 : Shape := ⟨2, ![500000, 64]⟩
abbrev S128 : Shape := ⟨1, ![128]⟩
abbrev S500000x128 : Shape := ⟨2, ![500000, 128]⟩
abbrev S_ : Shape := ⟨0, ![]⟩
abbrev S1x128 : Shape := ⟨2, ![1, 128]⟩
abbrev S500000x256 : Shape := ⟨2, ![500000, 256]⟩

abbrev nBuf : Space → Nat
  | .hbm => 15
  | .vmem => 0
  | .smem => 0
  | _ => 0

abbrev bufTy : (tb : Table) → Fin (tcTables nBuf tb) → BufTy
  | .hbm, ⟨0, _⟩ => ⟨S500000x64, .f32⟩
  | .hbm, ⟨1, _⟩ => ⟨S500000x64, .f32⟩
  | .hbm, ⟨2, _⟩ => ⟨S128, .f32⟩
  | .hbm, ⟨3, _⟩ => ⟨S500000x128, .f32⟩
  | .hbm, ⟨4, _⟩ => ⟨S_, .f32⟩
  | .hbm, ⟨5, _⟩ => ⟨S_, .f32⟩
  | .hbm, ⟨6, _⟩ => ⟨S500000x128, .f32⟩
  | .hbm, ⟨7, _⟩ => ⟨S500000x128, .i1⟩
  | .hbm, ⟨8, _⟩ => ⟨S_, .f32⟩
  | .hbm, ⟨9, _⟩ => ⟨S500000x128, .f32⟩
  | .hbm, ⟨10, _⟩ => ⟨S500000x128, .f32⟩
  | .hbm, ⟨11, _⟩ => ⟨S500000x128, .f32⟩
  | .hbm, ⟨12, _⟩ => ⟨S1x128, .f32⟩
  | .hbm, ⟨13, _⟩ => ⟨S500000x128, .f32⟩
  | .hbm, ⟨14, _⟩ => ⟨S500000x256, .f32⟩
  | _, _ => ⟨S500000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_call0_cst : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩

abbrev nD : Nat := 1
abbrev τ : Topo := Topo.v7x

variable {F : FTy → Type} [FloatOps F]

class Facts₀ : Prop where
  concatenates_S500000x64_S500000x64_S500000x128_d1 : Shape.Concatenates [S500000x64, S500000x64] S500000x128 1
  bcast_S_S500000x128 : S_.BroadcastsInDim S500000x128 (![] : Fin 0 → Fin S500000x128.rank)
  bcast_S128_S1x128_1 : S128.BroadcastsInDim S1x128 (![1] : Fin 1 → Fin S1x128.rank)
  bcast_S1x128_S500000x128_0_1 : S1x128.BroadcastsInDim S500000x128 (![0, 1] : Fin 2 → Fin S500000x128.rank)
  concatenates_S500000x128_S500000x128_S500000x256_d1 : Shape.Concatenates [S500000x128, S500000x128] S500000x256 1

variable [Facts₀]

class Facts : Prop extends Facts₀ where

variable [Facts]
-- ==== Proof.Spec.lean ====
/-
  What both programs compute, stated once and over no program.

  An output row has 256 columns. Columns 0‥63 are the leaky rectifier (slope `c`, the float32 nearest 0.2) of the
  same row of the first table, columns 64‥127 the leaky rectifier of the same row of the second table, and
  columns 128‥255 are the 128 entries of the user vector, the same in every row. `cell` is that rule for one row
  given as three functions of a column; `G` is the whole array, row `j 0` of the tables feeding row `j 0` of the
  result. The rule reads one row only: this is what lets a block of rows be computed from the same block of rows
  of the inputs, and a ragged last block from its rows inside the tables.

  The kernel writes the rectifier as `x` where `x > 0` and `x · c` elsewhere; the reference as `x` where
  `x ≥ 0` and `c · x` elsewhere. On the extended reals the two agree: they differ in the branch taken only at
  `x = 0`, where `0 · c = 0`, and elsewhere in the order of a commutative product (`leakyGe_eq`).
-/
import Idealize.ShloMosaic.PureOps.Ideal
import Idealize.ShloMosaic.PureOps.Ideal.Laws
import Idealize.ShloMosaic.Lib.ValueIdx

noncomputable section

namespace Cert.LeakyRows

open Idealize.ShloMosaic Idealize.ShloMosaic.ValueIdx

variable {F : FTy → Type} [FloatOps F]

/-- The leaky rectifier at one element, in the kernel's spelling: `x` if `x > 0`, else `x · c`. -/
def leaky (x : F .f32) : F .f32 :=
  Scalar.select (FloatOps.cmpf .ogt x (FloatOps.ofBits .f32 0x00000000#32)) x
    (FloatOps.mulf x (FloatOps.ofBits .f32 0x3E4CCCCD#32))

/-- The same in the reference's spelling: `x` if `x ≥ 0`, else `c · x`. -/
def leakyGe (x : F .f32) : F .f32 :=
  Scalar.select (FloatOps.cmpf .oge x (FloatOps.ofBits .f32 0x00000000#32)) x
    (FloatOps.mulf (FloatOps.ofBits .f32 0x3E4CCCCD#32) x)

/-- One output row at column `col`, from that row of the two tables (`h`, `r`) and the user vector `u`. -/
def cell (h r : Fin 64 → F .f32) (u : Fin 128 → F .f32) (col : Fin 256) : F .f32 :=
  if h1 : col.val < 64 then leaky (h ⟨col.val, h1⟩)
  else if h2 : col.val < 128 then leaky (r ⟨col.val - 64, by omega⟩)
  else u ⟨col.val - 128, by have := col.isLt; omega⟩

/-- The whole result: row `j 0`, column `j 1`. -/
def G (A0 A1 : FVec F ⟨2, ![500000, 64]⟩ .f32) (A2 : FVec F ⟨1, ![128]⟩ .f32) : FVec F ⟨2, ![500000, 256]⟩ .f32 :=
  fun j => cell (fun k => A0 (ix2 (n0 := 500000) (j 0) k)) (fun k => A1 (ix2 (n0 := 500000) (j 0) k))
    (fun k => A2 (ix1 k)) (j 1)

/-- `G` at explicit coordinates. -/
theorem G_apply (A0 A1 : FVec F ⟨2, ![500000, 64]⟩ .f32) (A2 : FVec F ⟨1, ![128]⟩ .f32) (R : Fin 500000) (col : Fin 256) :
    G A0 A1 A2 (ix2 R col) = cell (fun k => A0 (ix2 R k)) (fun k => A1 (ix2 R k)) (fun k => A2 (ix1 k)) col := rfl

/-- On the extended reals the reference's rectifier is the kernel's: at `0` both give `0` (`0 · c = 0`), above
    `0` both give `x`, below it `c · x = x · c`. -/
theorem leakyGe_eq (x : Ideal .f32) : leakyGe (F := Ideal) x = leaky (F := Ideal) x := by
  unfold leakyGe leaky
  simp only [Ideal.cmpf_def, Ideal.mulf_def, Ideal.ofBits_def, Ideal.ofBits_zero_f32, Ideal.cmp, Scalar.select]
  by_cases h0 : (0 : EReal) < x
  · simp [h0, le_of_lt h0]
  · by_cases h1 : (0 : EReal) ≤ x
    · have hx : x = 0 := le_antisymm (not_lt.mp h0) h1
      subst hx; simp
    · simp [h0, h1, mul_comm]

end Cert.LeakyRows

end
-- ==== Proof.PayBits.lean ====
/-
  The value the kernel stores, read at one index.

  The stored block has 4096 rows of 256 columns. It is three blocks laid side by side along the columns:
  columns 0‥63 are the leaky rectifier of the first loaded block, columns 64‥127 the leaky rectifier of the
  second, and columns 128‥255 the 128 entries of the loaded vector repeated in every row. Read at row `r`,
  column `col`, each of the three pieces is read at row `r` of its own block (the concatenation is along the
  columns only, the rectifier is elementwise, the vector does not depend on the row), so the value at row `r`
  reads row `r` of the two loaded blocks and nothing else of them: it is the row rule `cell` of that row.
-/
import proofs.«152583_j532575945120_1_alg».proof.Proof.Gen.Kernel
import proofs.«152583_j532575945120_1_alg».proof.Proof.Gen.Kernel.Skeleton
import proofs.«152583_j532575945120_1_alg».proof.Proof.Spec
import Idealize.ShloMosaic.Lib.Pipeline.Value
import Idealize.ShloMosaic.Lib.ValueIdx

noncomputable section

namespace Cert.Kernel.Pay

open Idealize.ShloMosaic Idealize.ShloMosaic.ValueIdx Cert.Kernel Cert.Kernel.Gen

variable {F : FTy → Type} [FloatOps F]

/-- Columns 128‥255: the loaded vector, given a unit leading axis and repeated down the rows, read at row `r`,
    column `c` is the vector's entry `c`, whatever the row. -/
theorem user_apply (X2 : Vec F S128 .f32) (r : Fin 4096) (c : Fin 128) :
    broadcastTo S4096x128 (shapeCast S1x128 (shapeCast S1x128 X2 shapeCasts_S128_S1x128) shapeCasts_S1x128_S1x128)
      broadcasts_S1x128_S4096x128 (ix2 r c) = X2 (ix1 c) := by
  refine (broadcastTo_apply _ _ (ix2 r c) (ix2 (0 : Fin 1) c) ?_).trans ?_
  · intro a
    match a with
    | ⟨0, _⟩ => rfl
    | ⟨1, _⟩ => rfl
  refine (shapeCast_apply _ _ (ix2 (0 : Fin 1) c) (ix2 (0 : Fin 1) c) rfl).trans ?_
  refine shapeCast_apply _ _ (ix2 (0 : Fin 1) c) (ix1 c) ?_
  rw [Shape.rowMajor_val_two, Shape.rowMajor_val_one]
  show c.val = 0 * 128 + c.val
  omega

/-- The stored block at row `r`, column `col` is the row rule of row `r` of the loaded blocks at `col`. -/
theorem pay_apply (X0 X1 : Vec F S4096x64 .f32) (X2 : Vec F S128 .f32) (r : Fin 4096) (col : Fin 256) :
    k0_pay1 X0 X1 X2 (ix2 r col)
      = Cert.LeakyRows.cell (fun k => X0 (ix2 r k)) (fun k => X1 (ix2 r k)) (fun k => X2 (ix1 k)) col := by
  unfold k0_pay1 Cert.LeakyRows.cell
  by_cases h1 : col.val < 64
  · -- columns 0‥63: the first piece, at the same row and column; the rectifier is elementwise
    rw [dif_pos h1]
    refine Eq.trans (concatenate_apply_piece (1 : Fin 2) _ _ (ix2 r col) 0 ?_ S4096x64 _ rfl rfl 0 ?_
      (ix2 r ⟨col.val, h1⟩) ?_ ?_) ?_
    · show 0 < 3
      omega
    · rfl
    · intro b hb
      match b with
      | ⟨0, _⟩ => rfl
      | ⟨1, _⟩ => exact absurd rfl hb
    · show 0 + col.val = col.val
      omega
    · rfl
  · rw [dif_neg h1]
    by_cases h2 : col.val < 128
    · -- columns 64‥127: the second piece, at the same row and column less 64
      rw [dif_pos h2]
      refine Eq.trans (concatenate_apply_piece (1 : Fin 2) _ _ (ix2 r col) 1 ?_ S4096x64 _ rfl rfl 64 ?_
        (ix2 r ⟨col.val - 64, by omega⟩) ?_ ?_) ?_
      · show 1 < 3
        omega
      · rfl
      · intro b hb
        match b with
        | ⟨0, _⟩ => rfl
        | ⟨1, _⟩ => exact absurd rfl hb
      · show 64 + (col.val - 64) = col.val
        omega
      · rfl
    · -- columns 128‥255: the third piece, at the same row and column less 128
      rw [dif_neg h2]
      refine Eq.trans (concatenate_apply_piece (1 : Fin 2) _ _ (ix2 r col) 2 ?_ S4096x128 _ rfl rfl 128 ?_
        (ix2 r ⟨col.val - 128, by have := col.isLt; omega⟩) ?_ ?_) ?_
      · show 2 < 3
        omega
      · rfl
      · intro b hb
        match b with
        | ⟨0, _⟩ => rfl
        | ⟨1, _⟩ => exact absurd rfl hb
      · show 128 + (col.val - 128) = col.val
        omega
      · exact user_apply X2 r _

end Cert.Kernel.Pay

end
-- ==== Proof.BodyBits.lean ====
/-
  The kernel's run, point by point, for any float instance.

  The grid has 123 points; point `t` stages rows `4096·t ‥ 4096·t + 4095` of the two tables, the whole user
  vector, and writes back the same rows of the result. 500000 = 122 · 4096 + 288, so the last point's blocks
  overhang the arrays: its fetches fill only the first 288 rows of the staging buffers and leave the other rows
  at words nothing names, and its write-back writes only the first 288 rows. The body computes every row of the
  result's staging buffer from the same row of the inputs' staging buffers (and from the user vector), so the
  rows it writes back are a function of the rows that were fetched, whatever the other rows hold.

  Proof data: after the body at point `t` each table's staging buffer holds its block of the table on the rows
  inside the table, the user vector's buffer holds the vector, and the result's buffer holds, on the rows inside
  the result, those rows of the specification `G` of the three argument arrays (`Garr`); outside those rows the
  data name the zero word, which no obligation reads (the three windows are loose). The body obligation at a
  point: the body's triple (`sound_kernel`: three whole loads, one whole store of the stored value `k0_pay1`),
  then, on the rows inside the result, the stored value is `G`'s block (`stored_cut`): the stored value read at
  a row is the row rule `cell` of that row of the buffers, a table's buffer at a row inside the table is the
  table at row `4096·t + r` (`fill_read0`, `fill_read1`), and `G` at that row is the same rule of the tables' rows.
-/
import proofs.«152583_j532575945120_1_alg».proof.Proof.Gen.Kernel.Frame
import proofs.«152583_j532575945120_1_alg».proof.Proof.Gen.Kernel.Skeleton
import proofs.«152583_j532575945120_1_alg».proof.Proof.PayBits
import proofs.«152583_j532575945120_1_alg».proof.Proof.Spec
import Idealize.ShloMosaic.Lib.Pipeline.Value
import Idealize.ShloMosaic.Lib.ValueIdx

set_option maxRecDepth 16384

noncomputable section

namespace Cert.Kernel.Body

open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

theorem hz2 : (![0, 0] : Fin 2 → Nat) = fun _ => 0 := funext fun a => by fin_cases a <;> rfl
theorem hz1 : (![0] : Fin 1 → Nat) = fun _ => 0 := funext fun a => by fin_cases a; rfl

set_option maxHeartbeats 1000000 in
/-- On whole staging memrefs holding `x0`, `x1`, `x2` (and the result's anything) the body ends with the result's
    buffer at the stored value `k0_pay1 x0 x1 x2` and the other three as they were: its loads read whole buffers
    and its one store overwrites the whole of the result's. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S128 .f32) (harg3 : arg3.IsWhole) (arg4 : Memref sig .tc .vmem S4096x256 .f32) (harg4 : arg4.IsWhole)
    (x0 x1 : Vec F S4096x64 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k0_pay1 x0 x1 x2)) -∗ K ⟨⟩))
      ⊢ wp frame (wpE (defs₀ (F := F)) Variants.none c none) E (cc0__checkin_kernel i arg1 harg1 arg2 harg2 arg3 harg3 arg4 harg4) K := by
  simp only [cc0__checkin_kernel_eq_skeleton]; unfold cc0__checkin_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _, View.mem_set_unit_zero hz2 inb_S4096x256_S4096x256_0_0 y⟩)).trans ?_
  rw [View.canon_unit_zero hz2]
  simp only [View.readAt_eq_ld, View.ld_unit_zero (S := S4096x64) hz2, View.ld_unit_zero (S := S128) hz1]

/-! ## The schedule in numbers -/

/-- Block index `t` on the row axis and `0` on the column axis, for the two tables' windows and the result's; the
    rows a transfer at `t` moves are the block's rows inside the array, and all the columns. -/
theorem sched : ∀ t : Fin cfg0.N,
    win0_0.index t 0 = t.val ∧ win0_0.index t 1 = 0 ∧ win0_1.index t 0 = t.val ∧ win0_1.index t 1 = 0
    ∧ win0_3.index t 0 = t.val ∧ win0_3.index t 1 = 0 ∧ win0_2.index t 0 = 0
    ∧ win0_0.xsize (grid0.coords t) 0 = min 4096 (500000 - t.val * 4096) ∧ win0_0.xsize (grid0.coords t) 1 = 64
    ∧ win0_1.xsize (grid0.coords t) 0 = min 4096 (500000 - t.val * 4096) ∧ win0_1.xsize (grid0.coords t) 1 = 64
    ∧ win0_3.xsize (grid0.coords t) 0 = min 4096 (500000 - t.val * 4096) ∧ win0_3.xsize (grid0.coords t) 1 = 256 :=
  (by decide +kernel : ∀ t : Fin grid0.N, _)

/-! ## The proof data -/

variable (m : (ℓ : Loc nD τ sig) → Buf (Elt F) ℓ) (ρ : Dev nD → PrngReg)

/-- The word the proof data name where no transfer reaches (no obligation reads it). -/
abbrev zf : Elt F .f32 := Scalar.ofBits .f32 0x00000000#32

/-- The specification's result from the three argument arrays as the region finds them. -/
def Garr (c : Dev nD) : Buf (Elt F) ((c : Thread nD τ).loc main_v0) :=
  Cert.LeakyRows.G (F := F) (V m c main_arg0) (V m c main_arg1) (V m c main_arg2)

/-- The result's block at point `t` as the specification has it: the rows of `Garr` the write-back at `t` writes. -/
def gblk (c : Dev nD) (t : Fin cfg0.N) : (win0_3.xblock (grid0.coords t)).Idx → Elt F .f32 :=
  (win0_3.blk t).view.read (Elt F) (Garr m c)

/-- The proof data of the one pipeline on core `c`: the arrays as the region finds them; after the body each
    table's buffer at its block on the rows inside the table, the user vector's at the vector, the result's at
    `G`'s block on the rows inside the result, the zero word elsewhere; the class's invariant; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => zf) (iblk m c 0 t)
    | ⟨1, _⟩ => win0_1.fill (grid0.coords t) (fun _ => zf) (iblk m c 1 t)
    | ⟨2, _⟩ => iblk m c 2 t
    | ⟨3, _⟩ => win0_3.fill (grid0.coords t) (fun _ => zf) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) :
    (dats m 0 c).after 0 t = win0_0.fill (grid0.coords t) (fun _ => zf) (iblk m c 0 t) := by dsimp only [dats]
theorem after_1 (c : Dev nD) (t : Fin cfg0.N) :
    (dats m 0 c).after 1 t = win0_1.fill (grid0.coords t) (fun _ => zf) (iblk m c 1 t) := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = win0_3.fill (grid0.coords t) (fun _ => zf) (gblk m c t) := by dsimp only [dats]

/-- A table's buffer, fetched at every point, holds the table's block on the rows the fetch fills and what it
    held (`d`) on the others. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- The user vector's buffer, fetched once, holds the vector at every point. -/
theorem before_2 (c : Dev nD) (t : Fin cfg0.N) (d) : (dats m 0 c).before 2 t d = iblk m c 2 t :=
  before0_2_of m (dats m 0 c) (A_eq m c 2) (after_2 m c) t d
/-- The result's buffer, written back at every point, is found at words nothing names. -/
theorem before_3 (c : Dev nD) (t : Fin cfg0.N) (d) : (dats m 0 c).before 3 t d = d :=
  (dats m 0 c).before_out_reset 3 rfl t
    (by rcases Nat.eq_zero_or_pos t.val with h | h
        · exact .inl h
        · exact .inr ⟨by omega, flush0_3 _⟩) d

/-! ## A buffer's rows inside the array are the array's rows -/

/-- Row `r` of a table's staging buffer at point `t`, when row `4096·t + r` is a row of the table: that row of the
    table, whatever the buffer held before the fetch. -/
theorem fill_read0 (c : Dev nD) (t : Fin cfg0.N) (d : S4096x64.Idx → Elt F .f32) (r : Fin 4096) (k : Fin 64)
    (h : t.val * 4096 + r.val < 500000) :
    win0_0.fill (grid0.coords t) d (iblk m c 0 t) (ix2 r k) = V m c main_arg0 (ix2 ⟨t.val * 4096 + r.val, h⟩ k) := by
  obtain ⟨i0, i1, -, -, -, -, -, x0, x1, -⟩ := sched t
  have hr : r.val < win0_0.xsize (grid0.coords t) 0 := by rw [x0]; have := r.isLt; omega
  have hk : k.val < win0_0.xsize (grid0.coords t) 1 := by rw [x1]; exact k.isLt
  let y : (win0_0.xblock (grid0.coords t)).Idx := fun a => match a with | ⟨0, _⟩ => ⟨r.val, hr⟩ | ⟨1, _⟩ => ⟨k.val, hk⟩
  have e : (ix2 r k : S4096x64.Idx) = win0_0.xinj (grid0.coords t) y :=
    funext fun a => by match a with | ⟨0, _⟩ => rfl | ⟨1, _⟩ => rfl
  rw [e, win0_0.fill_xinj]
  show V m c main_arg0 ((win0_0.blk t).view.emb y) = _
  refine congrArg _ (funext fun a => Fin.ext ?_)
  match a with
  | ⟨0, _⟩ => show win0_0.index t 0 * 4096 + 1 * r.val = t.val * 4096 + r.val; rw [i0]; omega
  | ⟨1, _⟩ => show win0_0.index t 1 * 64 + 1 * k.val = k.val; rw [i1]; omega

theorem fill_read1 (c : Dev nD) (t : Fin cfg0.N) (d : S4096x64.Idx → Elt F .f32) (r : Fin 4096) (k : Fin 64)
    (h : t.val * 4096 + r.val < 500000) :
    win0_1.fill (grid0.coords t) d (iblk m c 1 t) (ix2 r k) = V m c main_arg1 (ix2 ⟨t.val * 4096 + r.val, h⟩ k) := by
  obtain ⟨-, -, i0, i1, -, -, -, -, -, x0, x1, -⟩ := sched t
  have hr : r.val < win0_1.xsize (grid0.coords t) 0 := by rw [x0]; have := r.isLt; omega
  have hk : k.val < win0_1.xsize (grid0.coords t) 1 := by rw [x1]; exact k.isLt
  let y : (win0_1.xblock (grid0.coords t)).Idx := fun a => match a with | ⟨0, _⟩ => ⟨r.val, hr⟩ | ⟨1, _⟩ => ⟨k.val, hk⟩
  have e : (ix2 r k : S4096x64.Idx) = win0_1.xinj (grid0.coords t) y :=
    funext fun a => by match a with | ⟨0, _⟩ => rfl | ⟨1, _⟩ => rfl
  rw [e, win0_1.fill_xinj]
  show V m c main_arg1 ((win0_1.blk t).view.emb y) = _
  refine congrArg _ (funext fun a => Fin.ext ?_)
  match a with
  | ⟨0, _⟩ => show win0_1.index t 0 * 4096 + 1 * r.val = t.val * 4096 + r.val; rw [i0]; omega
  | ⟨1, _⟩ => show win0_1.index t 1 * 64 + 1 * k.val = k.val; rw [i1]; omega

/-- The user vector's buffer is the vector: its one block is the whole array. -/
theorem user_read (c : Dev nD) (t : Fin cfg0.N) (k : Fin 128) : iblk m c 2 t (ix1 k) = V m c main_arg2 (ix1 k) := by
  obtain ⟨-, -, -, -, -, -, i0, -⟩ := sched t
  show V m c main_arg2 ((win0_2.blk t).view.emb (ix1 k)) = _
  refine congrArg _ (funext fun a => Fin.ext ?_)
  match a with
  | ⟨0, _⟩ => show win0_2.index t 0 * 128 + 1 * k.val = k.val; rw [i0]; omega

/-! ## What the body stores, on the rows written back -/

/-- On the rows the write-back at `t` writes, the stored value computed from the staging buffers — the tables'
    blocks filled out with anything — is the specification's block: row `r` of the stored value is the row rule
    of row `r` of the buffers, which are rows `4096·t + r` of the tables, and that is `G`'s row `4096·t + r`. -/
theorem stored_cut (c : Dev nD) (t : Fin cfg0.N) (d0 d1 : S4096x64.Idx → Elt F .f32) :
    win0_3.cut (grid0.coords t)
        (k0_pay1 (win0_0.fill (grid0.coords t) d0 (iblk m c 0 t)) (win0_1.fill (grid0.coords t) d1 (iblk m c 1 t)) (iblk m c 2 t))
      = gblk m c t := by
  obtain ⟨-, -, -, -, i0, i1, -, -, -, -, -, x0, x1⟩ := sched t
  funext y
  have hy0 : (y 0).val < min 4096 (500000 - t.val * 4096) := by have := (y 0).isLt; rw [← x0]; exact this
  have hy1 : (y 1).val < 256 := by have := (y 1).isLt; rw [← x1]; exact this
  have hrow : t.val * 4096 + (y 0).val < 500000 := by omega
  let r : Fin 4096 := ⟨(y 0).val, by omega⟩
  let col : Fin 256 := ⟨(y 1).val, hy1⟩
  have e : win0_3.xinj (grid0.coords t) y = (ix2 r col : S4096x256.Idx) :=
    funext fun a => by match a with | ⟨0, _⟩ => rfl | ⟨1, _⟩ => rfl
  show k0_pay1 _ _ _ (win0_3.xinj (grid0.coords t) y) = _
  rw [e, Cert.Kernel.Pay.pay_apply]
  simp only [fill_read0 m c t d0 r _ hrow, fill_read1 m c t d1 r _ hrow, user_read m c t]
  unfold gblk
  show _ = Garr m c ((win0_3.blk t).view.emb y)
  have e2 : (win0_3.blk t).view.emb y = (ix2 ⟨t.val * 4096 + (y 0).val, hrow⟩ col : S500000x256.Idx) :=
    funext fun a => Fin.ext (by
      match a with
      | ⟨0, _⟩ => show win0_3.index t 0 * 4096 + 1 * (y 0).val = t.val * 4096 + (y 0).val; rw [i0]; omega
      | ⟨1, _⟩ => show win0_3.index t 1 * 256 + 1 * (y 1).val = (y 1).val; rw [i1]; omega)
  rw [e2]
  exact (Cert.LeakyRows.G_apply _ _ _ _ _).symm

/-! ## The body obligation, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns: the three cut windows' buffers stated on the rows their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point: the buffers hold what `before_W` says, the body's triple applies, and what it leaves is
    what the data name on the rows the transfers move: a table's buffer as found; the result's, the stored value,
    whose rows written back are the specification's (`stored_cut`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, win0_0.cut_fill, win0_1.cut_fill, win0_3.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists (k0_pay1 (win0_0.fill (grid0.coords t) d0 (iblk m c 0 t)) (win0_1.fill (grid0.coords t) d1 (iblk m c 1 t)) (iblk m c 2 t))
  rw [← stored_cut m c t d0 d1, win0_3.fill_cut]
  iexact H3

/-- The library's body obligation in its loose form, at every point. -/
theorem body_obligation (c : Dev nD) : BodyObligationLoose (dats (F := F) m 0 c) (defs₀ (F := F)) Variants.none () Set.univ := fun t => by
  rw [bigSep_W0, bigSep_W0]
  exact sound_body m c t

/-! ## The run, the frame, and the result array -/

set_option backward.isDefEq.respectTransparency.types false in
/-- From any memory with zero counters every weakly fair execution of @main terminates, and every final state has
    each array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, nothing faults, the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- What the write-back at `t` writes is the specification's block. -/
theorem flushed_3 (c : Dev nD) (t : Fin cfg0.N) :
    (dats m 0 c).flushed 3 t = ((cfg0.win 3).blk t).view.read (Elt F) (Garr m c) := by
  show win0_3.cut (grid0.coords t) ((dats m 0 c).after 3 t) = _
  rw [after_3, win0_3.cut_fill]; rfl

/-- An index of the result is in point `t`'s block iff, on each axis, it lies between the block's offset and the
    offset plus the extent the write-back moves. -/
theorem mem_blk (t : Fin cfg0.N) (i : S500000x256.Idx) :
    i ∈ (win0_3.blk t).view.set ↔ ∀ a, win0_3.index t a * win0_3.size a ≤ (i a).val
      ∧ (i a).val < win0_3.index t a * win0_3.size a + win0_3.xsize (grid0.coords t) a := by
  show i ∈ ((View.whole main_v0).slice (win0_3.rect t)).set ↔ _
  rw [View.set_slice_whole, Rect.mem_set_unit]

/-- Every row of the result is written back by the point whose block holds it: row `R` by point `R / 4096`. -/
theorem cover (i : S500000x256.Idx) :
    ∃ t : Fin cfg0.N, (cfg0.win 3).flush t = true ∧ i ∈ ((cfg0.win 3).blk t).view.set := by
  have h0 : (i 0).val < 500000 := (i 0).isLt
  have h1 : (i 1).val < 256 := (i 1).isLt
  have hN : (i 0).val / 4096 < cfg0.N := by rw [show cfg0.N = 123 from N_0]; omega
  refine ⟨⟨(i 0).val / 4096, hN⟩, flush0_3 _, ?_⟩
  show i ∈ (win0_3.blk ⟨(i 0).val / 4096, hN⟩).view.set
  rw [mem_blk]
  obtain ⟨-, -, -, -, i0, i1, -, -, -, -, -, x0, x1⟩ := sched ⟨(i 0).val / 4096, hN⟩
  intro a
  match a with
  | ⟨0, _⟩ =>
    show win0_3.index _ 0 * 4096 ≤ (i 0).val ∧ (i 0).val < win0_3.index _ 0 * 4096 + win0_3.xsize _ 0
    rw [i0, x0]; dsimp only; omega
  | ⟨1, _⟩ =>
    show win0_3.index _ 1 * 256 ≤ (i 1).val ∧ (i 1).val < win0_3.index _ 1 * 256 + win0_3.xsize _ 1
    rw [i1, x1]; omega

/-- The result array after the run is the specification of the three argument arrays. -/
theorem final (c : Dev nD) : (dats m 0 c).arrAt 3 cfg0.N = Garr m c :=
  (dats m 0 c).arrAt_eq_of_cover 3 (Garr m c) (fun t _ => flushed_3 m c t) cover

/-- The run with the result named: it ends at `G` of the argument arrays, which end as they began. -/
theorem run_value : θ_run defs (onTc (τ := τ) (main (F := F))) ⟨m, fun _ => 0, ρ⟩ (fun r => ∀ c : Dev nD,
      r.2.mem ((c.tc : Thread nD τ).loc main_v0)
          = Cert.LeakyRows.G (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.Kernel.Body

end
-- ==== Proof.PayIdeal.lean ====
/-
  The value the kernel stores, read at one index.

  The stored block has 4096 rows of 256 columns. It is three blocks laid side by side along the columns:
  columns 0‥63 are the leaky rectifier of the first loaded block, columns 64‥127 the leaky rectifier of the
  second, and columns 128‥255 the 128 entries of the loaded vector repeated in every row. Read at row `r`,
  column `col`, each of the three pieces is read at row `r` of its own block (the concatenation is along the
  columns only, the rectifier is elementwise, the vector does not depend on the row), so the value at row `r`
  reads row `r` of the two loaded blocks and nothing else of them: it is the row rule `cell` of that row.
-/
import proofs.«152583_j532575945120_1_alg».proof.Proof.Gen.KernelIdeal
import proofs.«152583_j532575945120_1_alg».proof.Proof.Gen.KernelIdeal.Skeleton
import proofs.«152583_j532575945120_1_alg».proof.Proof.Spec
import Idealize.ShloMosaic.Lib.Pipeline.Value
import Idealize.ShloMosaic.Lib.ValueIdx

noncomputable section

namespace Cert.KernelIdeal.Pay

open Idealize.ShloMosaic Idealize.ShloMosaic.ValueIdx Cert.KernelIdeal Cert.KernelIdeal.Gen

variable {F : FTy → Type} [FloatOps F]

/-- Columns 128‥255: the loaded vector, given a unit leading axis and repeated down the rows, read at row `r`,
    column `c` is the vector's entry `c`, whatever the row. -/
theorem user_apply (X2 : Vec F S128 .f32) (r : Fin 4096) (c : Fin 128) :
    broadcastTo S4096x128 (shapeCast S1x128 (shapeCast S1x128 X2 shapeCasts_S128_S1x128) shapeCasts_S1x128_S1x128)
      broadcasts_S1x128_S4096x128 (ix2 r c) = X2 (ix1 c) := by
  refine (broadcastTo_apply _ _ (ix2 r c) (ix2 (0 : Fin 1) c) ?_).trans ?_
  · intro a
    match a with
    | ⟨0, _⟩ => rfl
    | ⟨1, _⟩ => rfl
  refine (shapeCast_apply _ _ (ix2 (0 : Fin 1) c) (ix2 (0 : Fin 1) c) rfl).trans ?_
  refine shapeCast_apply _ _ (ix2 (0 : Fin 1) c) (ix1 c) ?_
  rw [Shape.rowMajor_val_two, Shape.rowMajor_val_one]
  show c.val = 0 * 128 + c.val
  omega

/-- The stored block at row `r`, column `col` is the row rule of row `r` of the loaded blocks at `col`. -/
theorem pay_apply (X0 X1 : Vec F S4096x64 .f32) (X2 : Vec F S128 .f32) (r : Fin 4096) (col : Fin 256) :
    k0_pay1 X0 X1 X2 (ix2 r col)
      = Cert.LeakyRows.cell (fun k => X0 (ix2 r k)) (fun k => X1 (ix2 r k)) (fun k => X2 (ix1 k)) col := by
  unfold k0_pay1 Cert.LeakyRows.cell
  by_cases h1 : col.val < 64
  · -- columns 0‥63: the first piece, at the same row and column; the rectifier is elementwise
    rw [dif_pos h1]
    refine Eq.trans (concatenate_apply_piece (1 : Fin 2) _ _ (ix2 r col) 0 ?_ S4096x64 _ rfl rfl 0 ?_
      (ix2 r ⟨col.val, h1⟩) ?_ ?_) ?_
    · show 0 < 3
      omega
    · rfl
    · intro b hb
      match b with
      | ⟨0, _⟩ => rfl
      | ⟨1, _⟩ => exact absurd rfl hb
    · show 0 + col.val = col.val
      omega
    · rfl
  · rw [dif_neg h1]
    by_cases h2 : col.val < 128
    · -- columns 64‥127: the second piece, at the same row and column less 64
      rw [dif_pos h2]
      refine Eq.trans (concatenate_apply_piece (1 : Fin 2) _ _ (ix2 r col) 1 ?_ S4096x64 _ rfl rfl 64 ?_
        (ix2 r ⟨col.val - 64, by omega⟩) ?_ ?_) ?_
      · show 1 < 3
        omega
      · rfl
      · intro b hb
        match b with
        | ⟨0, _⟩ => rfl
        | ⟨1, _⟩ => exact absurd rfl hb
      · show 64 + (col.val - 64) = col.val
        omega
      · rfl
    · -- columns 128‥255: the third piece, at the same row and column less 128
      rw [dif_neg h2]
      refine Eq.trans (concatenate_apply_piece (1 : Fin 2) _ _ (ix2 r col) 2 ?_ S4096x128 _ rfl rfl 128 ?_
        (ix2 r ⟨col.val - 128, by have := col.isLt; omega⟩) ?_ ?_) ?_
      · show 2 < 3
        omega
      · rfl
      · intro b hb
        match b with
        | ⟨0, _⟩ => rfl
        | ⟨1, _⟩ => exact absurd rfl hb
      · show 128 + (col.val - 128) = col.val
        omega
      · exact user_apply X2 r _

end Cert.KernelIdeal.Pay

end
-- ==== Proof.BodyIdeal.lean ====
/-
  The kernel's run, point by point, for any float instance.

  The grid has 123 points; point `t` stages rows `4096·t ‥ 4096·t + 4095` of the two tables, the whole user
  vector, and writes back the same rows of the result. 500000 = 122 · 4096 + 288, so the last point's blocks
  overhang the arrays: its fetches fill only the first 288 rows of the staging buffers and leave the other rows
  at words nothing names, and its write-back writes only the first 288 rows. The body computes every row of the
  result's staging buffer from the same row of the inputs' staging buffers (and from the user vector), so the
  rows it writes back are a function of the rows that were fetched, whatever the other rows hold.

  Proof data: after the body at point `t` each table's staging buffer holds its block of the table on the rows
  inside the table, the user vector's buffer holds the vector, and the result's buffer holds, on the rows inside
  the result, those rows of the specification `G` of the three argument arrays (`Garr`); outside those rows the
  data name the zero word, which no obligation reads (the three windows are loose). The body obligation at a
  point: the body's triple (`sound_kernel`: three whole loads, one whole store of the stored value `k0_pay1`),
  then, on the rows inside the result, the stored value is `G`'s block (`stored_cut`): the stored value read at
  a row is the row rule `cell` of that row of the buffers, a table's buffer at a row inside the table is the
  table at row `4096·t + r` (`fill_read0`, `fill_read1`), and `G` at that row is the same rule of the tables' rows.
-/
import proofs.«152583_j532575945120_1_alg».proof.Proof.Gen.KernelIdeal.Frame
import proofs.«152583_j532575945120_1_alg».proof.Proof.Gen.KernelIdeal.Skeleton
import proofs.«152583_j532575945120_1_alg».proof.Proof.PayIdeal
import proofs.«152583_j532575945120_1_alg».proof.Proof.Spec
import Idealize.ShloMosaic.Lib.Pipeline.Value
import Idealize.ShloMosaic.Lib.ValueIdx

set_option maxRecDepth 16384

noncomputable section

namespace Cert.KernelIdeal.Body

open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## The body's triple -/

theorem hz2 : (![0, 0] : Fin 2 → Nat) = fun _ => 0 := funext fun a => by fin_cases a <;> rfl
theorem hz1 : (![0] : Fin 1 → Nat) = fun _ => 0 := funext fun a => by fin_cases a; rfl

set_option maxHeartbeats 1000000 in
/-- On whole staging memrefs holding `x0`, `x1`, `x2` (and the result's anything) the body ends with the result's
    buffer at the stored value `k0_pay1 x0 x1 x2` and the other three as they were: its loads read whole buffers
    and its one store overwrites the whole of the result's. -/
theorem sound_kernel (c : Dev nD) (E : Set ℕ) (i : grid0.Coords)
    (arg1 : Memref sig .tc .vmem S4096x64 .f32) (harg1 : arg1.IsWhole) (arg2 : Memref sig .tc .vmem S4096x64 .f32) (harg2 : arg2.IsWhole)
    (arg3 : Memref sig .tc .vmem S128 .f32) (harg3 : arg3.IsWhole) (arg4 : Memref sig .tc .vmem S4096x256 .f32) (harg4 : arg4.IsWhole)
    (x0 x1 : Vec F S4096x64 .f32) (x2 : Vec F S128 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
              ∗ owns (c : Thread nD τ) arg4 fullShare (k0_pay1 x0 x1 x2)) -∗ K ⟨⟩))
      ⊢ wp frame (wpE (defs₀ (F := F)) Variants.none c none) E (cc0__checkin_kernel i arg1 harg1 arg2 harg2 arg3 harg3 arg4 harg4) K := by
  simp only [cc0__checkin_kernel_eq_skeleton]; unfold cc0__checkin_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  refine (View.read_writes_eq_canon _ _ _ (fun y => ⟨_, List.mem_singleton_self _, View.mem_set_unit_zero hz2 inb_S4096x256_S4096x256_0_0 y⟩)).trans ?_
  rw [View.canon_unit_zero hz2]
  simp only [View.readAt_eq_ld, View.ld_unit_zero (S := S4096x64) hz2, View.ld_unit_zero (S := S128) hz1]

/-! ## The schedule in numbers -/

/-- Block index `t` on the row axis and `0` on the column axis, for the two tables' windows and the result's; the
    rows a transfer at `t` moves are the block's rows inside the array, and all the columns. -/
theorem sched : ∀ t : Fin cfg0.N,
    win0_0.index t 0 = t.val ∧ win0_0.index t 1 = 0 ∧ win0_1.index t 0 = t.val ∧ win0_1.index t 1 = 0
    ∧ win0_3.index t 0 = t.val ∧ win0_3.index t 1 = 0 ∧ win0_2.index t 0 = 0
    ∧ win0_0.xsize (grid0.coords t) 0 = min 4096 (500000 - t.val * 4096) ∧ win0_0.xsize (grid0.coords t) 1 = 64
    ∧ win0_1.xsize (grid0.coords t) 0 = min 4096 (500000 - t.val * 4096) ∧ win0_1.xsize (grid0.coords t) 1 = 64
    ∧ win0_3.xsize (grid0.coords t) 0 = min 4096 (500000 - t.val * 4096) ∧ win0_3.xsize (grid0.coords t) 1 = 256 :=
  (by decide +kernel : ∀ t : Fin grid0.N, _)

/-! ## The proof data -/

variable (m : (ℓ : Loc nD τ sig) → Buf (Elt F) ℓ) (ρ : Dev nD → PrngReg)

/-- The word the proof data name where no transfer reaches (no obligation reads it). -/
abbrev zf : Elt F .f32 := Scalar.ofBits .f32 0x00000000#32

/-- The specification's result from the three argument arrays as the region finds them. -/
def Garr (c : Dev nD) : Buf (Elt F) ((c : Thread nD τ).loc main_v0) :=
  Cert.LeakyRows.G (F := F) (V m c main_arg0) (V m c main_arg1) (V m c main_arg2)

/-- The result's block at point `t` as the specification has it: the rows of `Garr` the write-back at `t` writes. -/
def gblk (c : Dev nD) (t : Fin cfg0.N) : (win0_3.xblock (grid0.coords t)).Idx → Elt F .f32 :=
  (win0_3.blk t).view.read (Elt F) (Garr m c)

/-- The proof data of the one pipeline on core `c`: the arrays as the region finds them; after the body each
    table's buffer at its block on the rows inside the table, the user vector's at the vector, the result's at
    `G`'s block on the rows inside the result, the zero word elsewhere; the class's invariant; nothing owed; full
    shares. -/
def dats (_ : Fin 1) (c : Dev nD) : Dat τ (Elt F) Unit ℕ (UR sig nD τ) ℕ cfg0 c where
  A w := V m c (Pipeline.arrRef spec0 w)
  after w t := match w with
    | ⟨0, _⟩ => win0_0.fill (grid0.coords t) (fun _ => zf) (iblk m c 0 t)
    | ⟨1, _⟩ => win0_1.fill (grid0.coords t) (fun _ => zf) (iblk m c 1 t)
    | ⟨2, _⟩ => iblk m c 2 t
    | ⟨3, _⟩ => win0_3.fill (grid0.coords t) (fun _ => zf) (gblk m c t)
  Φ _ := Pipeline.ΦA spec0 c
  q _ := fullShare
  owed _ := 0

theorem A_eq (c : Dev nD) (w : Fin cfg0.W) : (dats m 0 c).A w = V m c (Pipeline.arrRef spec0 w) := by
  dsimp only [dats]
theorem after_0 (c : Dev nD) (t : Fin cfg0.N) :
    (dats m 0 c).after 0 t = win0_0.fill (grid0.coords t) (fun _ => zf) (iblk m c 0 t) := by dsimp only [dats]
theorem after_1 (c : Dev nD) (t : Fin cfg0.N) :
    (dats m 0 c).after 1 t = win0_1.fill (grid0.coords t) (fun _ => zf) (iblk m c 1 t) := by dsimp only [dats]
theorem after_2 (c : Dev nD) (t : Fin cfg0.N) : (dats m 0 c).after 2 t = iblk m c 2 t := by dsimp only [dats]
theorem after_3 (c : Dev nD) (t : Fin cfg0.N) :
    (dats m 0 c).after 3 t = win0_3.fill (grid0.coords t) (fun _ => zf) (gblk m c t) := by dsimp only [dats]

/-- A table's buffer, fetched at every point, holds the table's block on the rows the fetch fills and what it
    held (`d`) on the others. -/
theorem before_0 (c : Dev nD) (t : Fin cfg0.N) (d) :
    (dats m 0 c).before 0 t d = win0_0.fill (grid0.coords t) d (iblk m c 0 t) := by
  rw [(dats m 0 c).before_fetched 0 t (fetch0_0 t) d]
  unfold Dat.fetched Dat.blockOf iblk; rw [A_eq]
theorem before_1 (c : Dev nD) (t : Fin cfg0.N) (d) :
    (dats m 0 c).before 1 t d = win0_1.fill (grid0.coords t) d (iblk m c 1 t) := by
  rw [(dats m 0 c).before_fetched 1 t (fetch0_1 t) d]
  unfold Dat.fetched Dat.blockOf iblk; rw [A_eq]
/-- The user vector's buffer, fetched once, holds the vector at every point. -/
theorem before_2 (c : Dev nD) (t : Fin cfg0.N) (d) : (dats m 0 c).before 2 t d = iblk m c 2 t :=
  before0_2_of m (dats m 0 c) (A_eq m c 2) (after_2 m c) t d
/-- The result's buffer, written back at every point, is found at words nothing names. -/
theorem before_3 (c : Dev nD) (t : Fin cfg0.N) (d) : (dats m 0 c).before 3 t d = d :=
  (dats m 0 c).before_out_reset 3 rfl t
    (by rcases Nat.eq_zero_or_pos t.val with h | h
        · exact .inl h
        · exact .inr ⟨by omega, flush0_3 _⟩) d

/-! ## A buffer's rows inside the array are the array's rows -/

/-- Row `r` of a table's staging buffer at point `t`, when row `4096·t + r` is a row of the table: that row of the
    table, whatever the buffer held before the fetch. -/
theorem fill_read0 (c : Dev nD) (t : Fin cfg0.N) (d : S4096x64.Idx → Elt F .f32) (r : Fin 4096) (k : Fin 64)
    (h : t.val * 4096 + r.val < 500000) :
    win0_0.fill (grid0.coords t) d (iblk m c 0 t) (ix2 r k) = V m c main_arg0 (ix2 ⟨t.val * 4096 + r.val, h⟩ k) := by
  obtain ⟨i0, i1, -, -, -, -, -, x0, x1, -⟩ := sched t
  have hr : r.val < win0_0.xsize (grid0.coords t) 0 := by rw [x0]; have := r.isLt; omega
  have hk : k.val < win0_0.xsize (grid0.coords t) 1 := by rw [x1]; exact k.isLt
  let y : (win0_0.xblock (grid0.coords t)).Idx := fun a => match a with | ⟨0, _⟩ => ⟨r.val, hr⟩ | ⟨1, _⟩ => ⟨k.val, hk⟩
  have e : (ix2 r k : S4096x64.Idx) = win0_0.xinj (grid0.coords t) y :=
    funext fun a => by match a with | ⟨0, _⟩ => rfl | ⟨1, _⟩ => rfl
  rw [e, win0_0.fill_xinj]
  show V m c main_arg0 ((win0_0.blk t).view.emb y) = _
  refine congrArg _ (funext fun a => Fin.ext ?_)
  match a with
  | ⟨0, _⟩ => show win0_0.index t 0 * 4096 + 1 * r.val = t.val * 4096 + r.val; rw [i0]; omega
  | ⟨1, _⟩ => show win0_0.index t 1 * 64 + 1 * k.val = k.val; rw [i1]; omega

theorem fill_read1 (c : Dev nD) (t : Fin cfg0.N) (d : S4096x64.Idx → Elt F .f32) (r : Fin 4096) (k : Fin 64)
    (h : t.val * 4096 + r.val < 500000) :
    win0_1.fill (grid0.coords t) d (iblk m c 1 t) (ix2 r k) = V m c main_arg1 (ix2 ⟨t.val * 4096 + r.val, h⟩ k) := by
  obtain ⟨-, -, i0, i1, -, -, -, -, -, x0, x1, -⟩ := sched t
  have hr : r.val < win0_1.xsize (grid0.coords t) 0 := by rw [x0]; have := r.isLt; omega
  have hk : k.val < win0_1.xsize (grid0.coords t) 1 := by rw [x1]; exact k.isLt
  let y : (win0_1.xblock (grid0.coords t)).Idx := fun a => match a with | ⟨0, _⟩ => ⟨r.val, hr⟩ | ⟨1, _⟩ => ⟨k.val, hk⟩
  have e : (ix2 r k : S4096x64.Idx) = win0_1.xinj (grid0.coords t) y :=
    funext fun a => by match a with | ⟨0, _⟩ => rfl | ⟨1, _⟩ => rfl
  rw [e, win0_1.fill_xinj]
  show V m c main_arg1 ((win0_1.blk t).view.emb y) = _
  refine congrArg _ (funext fun a => Fin.ext ?_)
  match a with
  | ⟨0, _⟩ => show win0_1.index t 0 * 4096 + 1 * r.val = t.val * 4096 + r.val; rw [i0]; omega
  | ⟨1, _⟩ => show win0_1.index t 1 * 64 + 1 * k.val = k.val; rw [i1]; omega

/-- The user vector's buffer is the vector: its one block is the whole array. -/
theorem user_read (c : Dev nD) (t : Fin cfg0.N) (k : Fin 128) : iblk m c 2 t (ix1 k) = V m c main_arg2 (ix1 k) := by
  obtain ⟨-, -, -, -, -, -, i0, -⟩ := sched t
  show V m c main_arg2 ((win0_2.blk t).view.emb (ix1 k)) = _
  refine congrArg _ (funext fun a => Fin.ext ?_)
  match a with
  | ⟨0, _⟩ => show win0_2.index t 0 * 128 + 1 * k.val = k.val; rw [i0]; omega

/-! ## What the body stores, on the rows written back -/

/-- On the rows the write-back at `t` writes, the stored value computed from the staging buffers — the tables'
    blocks filled out with anything — is the specification's block: row `r` of the stored value is the row rule
    of row `r` of the buffers, which are rows `4096·t + r` of the tables, and that is `G`'s row `4096·t + r`. -/
theorem stored_cut (c : Dev nD) (t : Fin cfg0.N) (d0 d1 : S4096x64.Idx → Elt F .f32) :
    win0_3.cut (grid0.coords t)
        (k0_pay1 (win0_0.fill (grid0.coords t) d0 (iblk m c 0 t)) (win0_1.fill (grid0.coords t) d1 (iblk m c 1 t)) (iblk m c 2 t))
      = gblk m c t := by
  obtain ⟨-, -, -, -, i0, i1, -, -, -, -, -, x0, x1⟩ := sched t
  funext y
  have hy0 : (y 0).val < min 4096 (500000 - t.val * 4096) := by have := (y 0).isLt; rw [← x0]; exact this
  have hy1 : (y 1).val < 256 := by have := (y 1).isLt; rw [← x1]; exact this
  have hrow : t.val * 4096 + (y 0).val < 500000 := by omega
  let r : Fin 4096 := ⟨(y 0).val, by omega⟩
  let col : Fin 256 := ⟨(y 1).val, hy1⟩
  have e : win0_3.xinj (grid0.coords t) y = (ix2 r col : S4096x256.Idx) :=
    funext fun a => by match a with | ⟨0, _⟩ => rfl | ⟨1, _⟩ => rfl
  show k0_pay1 _ _ _ (win0_3.xinj (grid0.coords t) y) = _
  rw [e, Cert.KernelIdeal.Pay.pay_apply]
  simp only [fill_read0 m c t d0 r _ hrow, fill_read1 m c t d1 r _ hrow, user_read m c t]
  unfold gblk
  show _ = Garr m c ((win0_3.blk t).view.emb y)
  have e2 : (win0_3.blk t).view.emb y = (ix2 ⟨t.val * 4096 + (y 0).val, hrow⟩ col : S500000x256.Idx) :=
    funext fun a => Fin.ext (by
      match a with
      | ⟨0, _⟩ => show win0_3.index t 0 * 4096 + 1 * (y 0).val = t.val * 4096 + (y 0).val; rw [i0]; omega
      | ⟨1, _⟩ => show win0_3.index t 1 * 256 + 1 * (y 1).val = (y 1).val; rw [i1]; omega)
  rw [e2]
  exact (Cert.LeakyRows.G_apply _ _ _ _ _).symm

/-! ## The body obligation, at any point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))
/-- and what it returns: the three cut windows' buffers stated on the rows their transfers move only. -/
def bodyPost (c : Dev nD) (t : Fin cfg0.N) : sProp 𝕄 :=
  iprop((dats m 0 c).Φ t.succ ∗ (dats m 0 c).owesAt () t.succ
    ∗ (∃ d, owns (c : Thread nD τ) (st0_0 t) fullShare (win0_0.fill (grid0.coords t) d (win0_0.cut (grid0.coords t) ((dats m 0 c).after 0 t))))
    ∗ (∃ d, owns (c : Thread nD τ) (st0_1 t) fullShare (win0_1.fill (grid0.coords t) d (win0_1.cut (grid0.coords t) ((dats m 0 c).after 1 t))))
    ∗ owns (c : Thread nD τ) (st0_2 t) fullShare ((dats m 0 c).after 2 t)
    ∗ (∃ d, owns (c : Thread nD τ) (st0_3 t) fullShare (win0_3.fill (grid0.coords t) d (win0_3.cut (grid0.coords t) ((dats m 0 c).after 3 t)))))

/-- The body at any point: the buffers hold what `before_W` says, the body's triple applies, and what it leaves is
    what the data name on the rows the transfers move: a table's buffer as found; the result's, the stored value,
    whose rows written back are the specification's (`stored_cut`). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, win0_0.cut_fill, win0_1.cut_fill, win0_3.cut_fill]
  iintro ⟨HΦ, Ho, ⟨%d0, H0⟩, ⟨%d1, H1⟩, ⟨%d2, H2⟩, ⟨%d3, H3⟩⟩
  iapply (sound_kernel c Set.univ (grid0.coords t) _ _ _ _ _ _ _ _
    (win0_0.fill (grid0.coords t) d0 (iblk m c 0 t)) (win0_1.fill (grid0.coords t) d1 (iblk m c 1 t)) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexists d0; iexact H0
  isplitl [H1]; · iexists d1; iexact H1
  isplitl [H2]; · iexact H2
  iexists (k0_pay1 (win0_0.fill (grid0.coords t) d0 (iblk m c 0 t)) (win0_1.fill (grid0.coords t) d1 (iblk m c 1 t)) (iblk m c 2 t))
  rw [← stored_cut m c t d0 d1, win0_3.fill_cut]
  iexact H3

/-- The library's body obligation in its loose form, at every point. -/
theorem body_obligation (c : Dev nD) : BodyObligationLoose (dats (F := F) m 0 c) (defs₀ (F := F)) Variants.none () Set.univ := fun t => by
  rw [bigSep_W0, bigSep_W0]
  exact sound_body m c t

/-! ## The run, the frame, and the result array -/

set_option backward.isDefEq.respectTransparency.types false in
/-- From any memory with zero counters every weakly fair execution of @main terminates, and every final state has
    each array of the pipeline at what the library computes from the proof data. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hΦ := fun _ _ => rfl)

/-- The frame: the program runs to the end, nothing faults, the three argument arrays end as they began. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- What the write-back at `t` writes is the specification's block. -/
theorem flushed_3 (c : Dev nD) (t : Fin cfg0.N) :
    (dats m 0 c).flushed 3 t = ((cfg0.win 3).blk t).view.read (Elt F) (Garr m c) := by
  show win0_3.cut (grid0.coords t) ((dats m 0 c).after 3 t) = _
  rw [after_3, win0_3.cut_fill]; rfl

/-- An index of the result is in point `t`'s block iff, on each axis, it lies between the block's offset and the
    offset plus the extent the write-back moves. -/
theorem mem_blk (t : Fin cfg0.N) (i : S500000x256.Idx) :
    i ∈ (win0_3.blk t).view.set ↔ ∀ a, win0_3.index t a * win0_3.size a ≤ (i a).val
      ∧ (i a).val < win0_3.index t a * win0_3.size a + win0_3.xsize (grid0.coords t) a := by
  show i ∈ ((View.whole main_v0).slice (win0_3.rect t)).set ↔ _
  rw [View.set_slice_whole, Rect.mem_set_unit]

/-- Every row of the result is written back by the point whose block holds it: row `R` by point `R / 4096`. -/
theorem cover (i : S500000x256.Idx) :
    ∃ t : Fin cfg0.N, (cfg0.win 3).flush t = true ∧ i ∈ ((cfg0.win 3).blk t).view.set := by
  have h0 : (i 0).val < 500000 := (i 0).isLt
  have h1 : (i 1).val < 256 := (i 1).isLt
  have hN : (i 0).val / 4096 < cfg0.N := by rw [show cfg0.N = 123 from N_0]; omega
  refine ⟨⟨(i 0).val / 4096, hN⟩, flush0_3 _, ?_⟩
  show i ∈ (win0_3.blk ⟨(i 0).val / 4096, hN⟩).view.set
  rw [mem_blk]
  obtain ⟨-, -, -, -, i0, i1, -, -, -, -, -, x0, x1⟩ := sched ⟨(i 0).val / 4096, hN⟩
  intro a
  match a with
  | ⟨0, _⟩ =>
    show win0_3.index _ 0 * 4096 ≤ (i 0).val ∧ (i 0).val < win0_3.index _ 0 * 4096 + win0_3.xsize _ 0
    rw [i0, x0]; dsimp only; omega
  | ⟨1, _⟩ =>
    show win0_3.index _ 1 * 256 ≤ (i 1).val ∧ (i 1).val < win0_3.index _ 1 * 256 + win0_3.xsize _ 1
    rw [i1, x1]; omega

/-- The result array after the run is the specification of the three argument arrays. -/
theorem final (c : Dev nD) : (dats m 0 c).arrAt 3 cfg0.N = Garr m c :=
  (dats m 0 c).arrAt_eq_of_cover 3 (Garr m c) (fun t _ => flushed_3 m c t) cover

/-- The run with the result named: it ends at `G` of the argument arrays, which end as they began. -/
theorem run_value : θ_run defs (onTc (τ := τ) (main (F := F))) ⟨m, fun _ => 0, ρ⟩ (fun r => ∀ c : Dev nD,
      r.2.mem ((c.tc : Thread nD τ).loc main_v0)
          = Cert.LeakyRows.G (F := F) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).1 3).trans (final m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c)))⟩) (run_main m ρ)

end Cert.KernelIdeal.Body

end
-- ==== Proof.RefRun.lean ====
/-
  The reference program's run, and its result as the specification.

  First the value: the reference's result as one term of its three arguments, and that term as the specification's
  array. Then the run: the program is a straight line of twelve array operations (the two functions it calls are
  each a straight line too, and a call is its callee's body on the caller's arrays), so every execution ends with
  each array at the composition of the operations that produced it, the three arguments untouched.

  The reference joins the two tables side by side (128 columns), applies the leaky rectifier to every element of
  the joined array — spelled "x where x ≥ 0, else c · x", the slope c a scalar constant broadcast to the array, the
  zero it compares with likewise —, stretches the user vector first to one row of 128 and then to every row, and
  joins the rectified array and the stretched vector side by side (256 columns). `refOut` is that composition.

  Read at row R and column col: below 128 the outer join reads its first piece at (R, col), a select / compare /
  product at one element, which is the rectifier of the inner join at (R, col) — the first table at (R, col) below
  64, the second at (R, col - 64) from 64 on; from 128 on the outer join reads the stretched vector at
  (R, col - 128), the user vector's entry col - 128 whatever the row. That is `LeakyRows.cell` case by case, once
  the reference's spelling of the rectifier is exchanged for the specification's (`LeakyRows.leakyGe_eq`: on the
  extended reals they differ only in the branch taken at 0, where both give 0, and in the order of a product).
-/
import proofs.«152583_j532575945120_1_alg».proof.ReferenceIdeal
import proofs.«152583_j532575945120_1_alg».proof.Proof.Gen.ReferenceIdeal
import proofs.«152583_j532575945120_1_alg».proof.Proof.Spec
import Idealize.ShloMosaic.Lib.StableHlo.Run
import Idealize.ShloMosaic.Lib.Pipeline.Value
import Idealize.ShloMosaic.Lib.ValueIdx

noncomputable section

namespace Cert.ReferenceIdeal.RefRun

open Idealize.ShloMosaic Idealize.ShloMosaic.ValueIdx Cert.ReferenceIdeal Cert.ReferenceIdeal.Gen

variable {F : FTy → Type} [FloatOps F]

/-- The two tables joined along the columns: 500000 rows of 128. -/
def joined (A0 A1 : FVec F S500000x64 .f32) : FVec F S500000x128 .f32 :=
  concatenate S500000x128 1 [⟨S500000x64, A0⟩, ⟨S500000x64, A1⟩] concatenates_S500000x64_S500000x64_S500000x128_d1

/-- The rectifier over an array as the reference spells it: the comparison with a broadcast zero, the product of
    the broadcast slope with the array, and the select between the array and that product. -/
def rectified (X : FVec F S500000x128 .f32) : FVec F S500000x128 .f32 :=
  select (cmpf .oge X (broadcastInDim S500000x128 ![] bcast_S_S500000x128 (constant S_ .f32 0x00000000#32))) X
    (mulf (broadcastInDim S500000x128 ![] bcast_S_S500000x128 (id (constant S_ .f32 0x3E4CCCCD#32))) X)

/-- The user vector as one row, then as every row. -/
def stretched (A2 : FVec F S128 .f32) : FVec F S500000x128 .f32 :=
  broadcastInDim S500000x128 ![0, 1] bcast_S1x128_S500000x128_0_1 (broadcastInDim S1x128 ![1] bcast_S128_S1x128_1 A2)

/-- What the reference computes: the rectified join of the tables, then the stretched user vector, side by side. -/
def refOut (A0 A1 : FVec F S500000x64 .f32) (A2 : FVec F S128 .f32) : FVec F S500000x256 .f32 :=
  concatenate S500000x256 1 [⟨S500000x128, rectified (joined A0 A1)⟩, ⟨S500000x128, stretched A2⟩]
    concatenates_S500000x128_S500000x128_S500000x256_d1

/-- The join at a column below 64 is the first table there. -/
theorem joined_left (A0 A1 : FVec F S500000x64 .f32) (R : Fin 500000) (k : Fin 64) (c : Fin 128) (hc : c.val = k.val) :
    joined A0 A1 (ix2 R c) = A0 (ix2 R k) := by
  unfold joined
  refine concatenate_pair_apply_left (t := S500000x128) (s₁ := S500000x64) (s₂ := S500000x64) 1 A0 A1 _ (ix2 R c) rfl (ix2 R k) ?_
  intro b
  match b with
  | ⟨0, _⟩ => rfl
  | ⟨1, _⟩ => exact hc.symm

/-- The join at a column from 64 on is the second table 64 columns to the left. -/
theorem joined_right (A0 A1 : FVec F S500000x64 .f32) (R : Fin 500000) (k : Fin 64) (c : Fin 128) (hc : c.val = k.val + 64) :
    joined A0 A1 (ix2 R c) = A1 (ix2 R k) := by
  unfold joined
  refine concatenate_pair_apply_right (t := S500000x128) (s₁ := S500000x64) (s₂ := S500000x64) 1 A0 A1 _ (ix2 R c) rfl rfl (ix2 R k) ?_ ?_
  · intro b hb
    match b with
    | ⟨0, _⟩ => rfl
    | ⟨1, _⟩ => exact absurd rfl hb
  · exact hc.symm

/-- The rectified array at one element is the rectifier, in the reference's spelling, of the array's element:
    a broadcast scalar reads its value everywhere and the three operations act element by element. -/
theorem rectified_apply (X : FVec F S500000x128 .f32) (i : S500000x128.Idx) :
    rectified X i = Cert.LeakyRows.leakyGe (X i) := rfl

/-- The stretched vector at row R, column k, is the user vector's entry k. -/
theorem stretched_apply (A2 : FVec F S128 .f32) (R : Fin 500000) (k : Fin 128) :
    stretched A2 (ix2 R k) = A2 (ix1 k) := by
  unfold stretched
  refine (broadcastInDim_apply (s := S1x128) (t := S500000x128) ![0, 1] bcast_S1x128_S500000x128_0_1 _ (ix2 R k)
    (ix2 (0 : Fin 1) k) ?_).trans ?_
  · intro a
    match a with
    | ⟨0, _⟩ => rfl
    | ⟨1, _⟩ => rfl
  · refine broadcastInDim_apply (s := S128) (t := S1x128) ![1] bcast_S128_S1x128_1 A2 (ix2 (0 : Fin 1) k) (ix1 k) ?_
    intro a
    match a with
    | ⟨0, _⟩ => rfl

/-- On the extended reals the reference's result is the specification's array. -/
theorem refOut_eq (A0 A1 : FVec Ideal S500000x64 .f32) (A2 : FVec Ideal S128 .f32) :
    refOut (F := Ideal) A0 A1 A2 = Cert.LeakyRows.G (F := Ideal) A0 A1 A2 := by
  funext j
  obtain ⟨R, col, rfl⟩ : ∃ (R : Fin 500000) (col : Fin 256), j = ix2 R col := ⟨j 0, j 1, eq_ix2 j⟩
  rw [Cert.LeakyRows.G_apply]
  unfold Cert.LeakyRows.cell refOut
  by_cases h1 : col.val < 64
  · -- the first table's columns
    rw [dif_pos h1]
    refine (concatenate_pair_apply_left (t := S500000x256) (s₁ := S500000x128) (s₂ := S500000x128) 1 _ _ _ (ix2 R col) rfl
      (ix2 R (⟨col.val, by omega⟩ : Fin 128)) ?_).trans ?_
    · intro b
      match b with
      | ⟨0, _⟩ => rfl
      | ⟨1, _⟩ => rfl
    · rw [rectified_apply, joined_left A0 A1 R ⟨col.val, h1⟩ ⟨col.val, by omega⟩ rfl]
      exact Cert.LeakyRows.leakyGe_eq _
  · rw [dif_neg h1]
    by_cases h2 : col.val < 128
    · -- the second table's columns
      rw [dif_pos h2]
      refine (concatenate_pair_apply_left (t := S500000x256) (s₁ := S500000x128) (s₂ := S500000x128) 1 _ _ _ (ix2 R col) rfl
        (ix2 R (⟨col.val, h2⟩ : Fin 128)) ?_).trans ?_
      · intro b
        match b with
        | ⟨0, _⟩ => rfl
        | ⟨1, _⟩ => rfl
      · rw [rectified_apply, joined_right A0 A1 R ⟨col.val - 64, by omega⟩ ⟨col.val, h2⟩ (by simp only; omega)]
        exact Cert.LeakyRows.leakyGe_eq _
    · -- the user vector's columns
      rw [dif_neg h2]
      have hc := col.isLt
      refine (concatenate_pair_apply_right (t := S500000x256) (s₁ := S500000x128) (s₂ := S500000x128) 1 _ _ _ (ix2 R col) rfl rfl
        (ix2 R (⟨col.val - 128, by omega⟩ : Fin 128)) ?_ ?_).trans ?_
      · intro b hb
        match b with
        | ⟨0, _⟩ => rfl
        | ⟨1, _⟩ => exact absurd rfl hb
      · show col.val - 128 + 128 = col.val
        omega
      · exact stretched_apply A2 R _

/-! ## The run -/

open Idealize.ShloMosaic.TcCoe Idealize.SL.Sem Idealize.ShloMosaic.StableHlo

/-- The program's twelve operations in the order it applies them: the join of the tables; the slope constant; then
    the rectifier function's body on the joined array and the slope — the zero constant, its broadcast, the
    comparison "≥", the slope's change of format (none at f32), its broadcast, the product slope · array, and the
    selecting function's one operation, the select —; the user vector stretched to a row, then to all rows; and the
    join of the rectified array with it. -/
abbrev ops : List (HloOp τ sig (Elt F)) :=
  [ binary main_arg0 main_arg1 main_v0 ((fun a b => concatenate S500000x128 1 [⟨S500000x64, a⟩, ⟨S500000x64, b⟩] concatenates_S500000x64_S500000x64_S500000x128_d1) : (⟨S500000x64, .f32⟩ : BufTy).Contents (Elt F) → (⟨S500000x64, .f32⟩ : BufTy).Contents (Elt F) → (⟨S500000x128, .f32⟩ : BufTy).Contents (Elt F)),
    nullary main_cst (constant S_ .f32 0x3E4CCCCD#32),
    TRef.nullary main_call0.cst (constant S_ .f32 0x00000000#32),
    TRef.unary main_call0.cst main_call0.v0 (broadcastInDim S500000x128 ![] bcast_S_S500000x128),
    TRef.binary (.of main_v0) main_call0.v0 main_call0.v1 (cmpf .oge),
    TRef.unary (.of main_cst) main_call0.v2 id,
    TRef.unary main_call0.v2 main_call0.v3 (broadcastInDim S500000x128 ![] bcast_S_S500000x128),
    TRef.binary main_call0.v3 (.of main_v0) main_call0.v4 mulf,
    TRef.ternary main_call0.v1 (.of main_v0) main_call0.v4 main_call0.call0.v0 select,
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S500000x128 ![0, 1] bcast_S1x128_S500000x128_0_1 : (⟨S1x128, .f32⟩ : BufTy).Contents (Elt F) → (⟨S500000x128, .f32⟩ : BufTy).Contents (Elt F)),
    binary main_v1 main_v3 main_v4 ((fun a b => concatenate S500000x256 1 [⟨S500000x128, a⟩, ⟨S500000x128, b⟩] concatenates_S500000x128_S500000x128_S500000x256_d1) : (⟨S500000x128, .f32⟩ : BufTy).Contents (Elt F) → (⟨S500000x128, .f32⟩ : BufTy).Contents (Elt F) → (⟨S500000x256, .f32⟩ : BufTy).Contents (Elt F)) ]

set_option maxRecDepth 1024 in
/-- The program is that straight line: with the two called functions' bodies put in place of the calls and the
    sequencing re-associated, both sides are the same chain of twelve steps. -/
theorem main_eq (c : Dev nD) : main (F := F) c = seq ops := by
  simp only [main, fn_leaky_relu.body, fn_where.body, seq, bind_assoc, pure_bind]

/-- No array of the program is scoped to a region, and it has no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches arrays of the device only. -/
theorem ops_sub : (ops : List (HloOp τ sig (Elt F))).Forall fun op => op.bufs ⊆ tcRefs τ sig :=
  ⟨binary_bufs_sub .., nullary_bufs_sub .., nullary_bufs_sub .., unary_bufs_sub .., binary_bufs_sub .., unary_bufs_sub ..,
    unary_bufs_sub .., binary_bufs_sub .., ternary_bufs_sub .., unary_bufs_sub .., unary_bufs_sub .., binary_bufs_sub ..⟩

/-- After the twelve operations the result array holds `refOut` of what the three arguments held at the start:
    each operation's result read at the array it writes is its function of its operands' contents, and every
    intermediate array is written once, before it is read. -/
theorem out_eq (V : Valuation τ sig (Elt F)) :
    after ops V (main_v4 : DevRef τ sig)
      = refOut (V (main_arg0 : DevRef τ sig)) (V (main_arg1 : DevRef τ sig)) (V (main_arg2 : DevRef τ sig)) := by
  after_results
  rfl

/-- On the one device, from any memory with zero counters: every weakly fair execution of the reference terminates
    with its result array at the specification's array of the three arguments' initial contents, and the three
    arguments unchanged (no operation writes them). -/
theorem run (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v4)
          = Cert.LeakyRows.G (F := Ideal) (m ((c.tc : Thread nD τ).loc main_arg0)) (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c main_v4).trans ((out_eq (launchContents m c)).trans (refOut_eq _ _ _)),
      (h c main_arg0).trans (by after_results),
      (h c main_arg1).trans (by after_results),
      (h c main_arg2).trans (by after_results)⟩)
    (run_seq scopedRefs_eq scopedSems_eq defs main (fun _ => ops) main_eq (fun _ => ops_sub) m ρ)

end Cert.ReferenceIdeal.RefRun

end
-- ==== Proof.lean ====
/-
  Two programs that build, for each of 500000 items, a row of 256 numbers: the leaky rectifier (slope the float32
  nearest 0.2) of the item's 64 hotness and 64 region entries, followed by the 128 entries of one user vector.

  The kernel walks the items in 123 blocks of 4096 rows (the last holds 288), rectifies the two tables' blocks
  separately with `x > 0 ? x : x · c`, and stores them side by side with the user vector repeated on every row.
  The reference joins the two tables first, rectifies the joined array with `x ≥ 0 ? x : c · x`, repeats the
  user vector on every row, and joins again. Both are the one function `Cert.LeakyRows.G` of the three argument
  arrays: row by row, columns 0‥63 rectify the first table's row, 64‥127 the second's, 128‥255 copy the vector.

  * the kernel, at any float instance, ends with its result array at `G` of its arguments and its arguments
    unchanged (`Body.run_value`; its frame is the same run read at the arguments);
  * the reference, on the extended reals, ends at `G` too: its rectifier differs from the kernel's only at `0`,
    where both give `0`, and in the order of a commutative product (`RefRun.run`);
  * the idealization rewrote nothing, so there is nothing to preserve.
  No finiteness is used: the rule is the same on the infinities.
-/
import proofs.«152583_j532575945120_1_alg».proof.Defs
import proofs.«152583_j532575945120_1_alg».proof.Proof.Gen.Pre_finite_inputs
import proofs.«152583_j532575945120_1_alg».proof.Proof.BodyBits
import proofs.«152583_j532575945120_1_alg».proof.Proof.BodyIdeal
import proofs.«152583_j532575945120_1_alg».proof.Proof.RefRun
import Idealize.ShloMosaic.Adequacy
import Idealize.ShloMosaic.Init

noncomputable section

namespace Cert.Proof

open Idealize.ShloMosaic Idealize.ShloMosaic.TcCoe Idealize.SL.Sem

/-- The word-level kernel runs to the end and leaves its arguments as they were. -/
theorem frame_k : Cert.frame_Kernel := fun m ρ _ => Cert.Kernel.Body.frame (F := Bits) m ρ

/-- So does the kernel read on the extended reals. -/
theorem frame_ki : Cert.frame_KernelIdeal := fun m ρ _ => Cert.KernelIdeal.Body.frame (F := Ideal) m ρ

/-- The reference's run, its result forgotten. -/
theorem frame_ri : Cert.frame_ReferenceIdeal := fun m ρ _ =>
  (θ_run Cert.ReferenceIdeal.defs _ _).mono (fun _ h c => (h c).2) (Cert.ReferenceIdeal.RefRun.run m ρ)

/-- The idealization is the program's own text read on the extended reals. -/
theorem preserves : Cert.preserves_Kernel_KernelIdeal := trivial

/-- From memories that agree on the three arguments both programs end at `G` of those arguments. -/
theorem algebraic : Cert.algebraic_KernelIdeal_ReferenceIdeal := by
  intro m ρ m' ρ' _ hagree
  refine ⟨_, Cert.KernelIdeal.Body.run_value (F := Ideal) m ρ, ?_⟩
  refine (θ_run Cert.ReferenceIdeal.defs _ _).mono (fun _ h c => ⟨(h c).1.trans ?_, (h c).2⟩)
    (Cert.ReferenceIdeal.RefRun.run m' ρ')
  rw [(hagree c).1, (hagree c).2.1, (hagree c).2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
